-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x16 : Shape := ⟨3, ![2, 100000, 16]⟩
abbrev S2x1080x1920x3 : Shape := ⟨4, ![2, 1080, 1920, 3]⟩
abbrev S200000x3 : Shape := ⟨2, ![200000, 3]⟩
abbrev S2x1080x1920 : Shape := ⟨3, ![2, 1080, 1920]⟩
abbrev S_ : Shape := ⟨0, ![]⟩

class Facts : Prop where
  bcast_S_S2x100000x16 : S_.BroadcastsInDim S2x100000x16 (![] : Fin 0 → Fin S2x100000x16.rank)
  reducesTo_S2x100000x16_S_d0_1_2 : S2x100000x16.ReducesTo [0, 1, 2] S_
  h_S_ : 0 < S_.numel
  bcast_S_S2x1080x1920x3 : S_.BroadcastsInDim S2x1080x1920x3 (![] : Fin 0 → Fin S2x1080x1920x3.rank)
  reducesTo_S2x1080x1920x3_S_d0_1_2_3 : S2x1080x1920x3.ReducesTo [0, 1, 2, 3] S_

variable [Facts]

def fn {F : FTy → Type} [FloatOps F] (main_arg0 : FVec F S2x100000x16 .f32) (main_arg1 : FVec F S2x1080x1920x3 .f32) (main_arg2 : IVec S200000x3 32) (main_arg3 : IVec S2x1080x1920 32) : IVec S_ 1 :=
  let main_v0 : FVec F S2x100000x16 .f32 := Host.absf main_arg0
  let main_cst : FVec F S_ .f32 := constant S_ .f32 0x7F800000#32
  let main_v1 : FVec F S2x100000x16 .f32 := broadcastInDim S2x100000x16 ![] bcast_S_S2x100000x16 main_cst
  let main_v2 : IVec S2x100000x16 1 := cmpf .olt main_v0 main_v1
  let main_c : IVec S_ 1 := constantI S_ 1 1#1
  let main_v3 : IVec S_ 1 := (fun x v => Host.reduce IntOp.andi x v reducesTo_S2x100000x16_S_d0_1_2 h_S_) main_v2 main_c
  let main_v4 : FVec F S2x1080x1920x3 .f32 := Host.absf main_arg1
  let main_cst_0 : FVec F S_ .f32 := constant S_ .f32 0x7F800000#32
  let main_v5 : FVec F S2x1080x1920x3 .f32 := broadcastInDim S2x1080x1920x3 ![] bcast_S_S2x1080x1920x3 main_cst_0
  let main_v6 : IVec S2x1080x1920x3 1 := cmpf .olt main_v4 main_v5
  let main_c_1 : IVec S_ 1 := constantI S_ 1 1#1
  let main_v7 : IVec S_ 1 := (fun x v => Host.reduce IntOp.andi x v reducesTo_S2x1080x1920x3_S_d0_1_2_3 h_S_) main_v6 main_c_1
  let main_v8 : IVec S_ 1 := andi main_v3 main_v7
  main_v8
-- ==== Kernel.lean ====
abbrev S2x100000x16 : Shape := ⟨3, ![2, 100000, 16]⟩
abbrev S2x1080x1920x3 : Shape := ⟨4, ![2, 1080, 1920, 3]⟩
abbrev S200000x3 : Shape := ⟨2, ![200000, 3]⟩
abbrev S2x1080x1920 : Shape := ⟨3, ![2, 1080, 1920]⟩
abbrev S_ : Shape := ⟨0, ![]⟩
abbrev S2x1080x1920x1 : Shape := ⟨4, ![2, 1080, 1920, 1]⟩
abbrev S2x1080x1920x16 : Shape := ⟨4, ![2, 1080, 1920, 16]⟩
abbrev S1x24x384 : Shape := ⟨3, ![1, 24, 384]⟩
abbrev S1x24x384x16 : Shape := ⟨4, ![1, 24, 384, 16]⟩
abbrev S1x24x384x1 : Shape := ⟨4, ![1, 24, 384, 1]⟩

abbrev nBuf : Space → Nat
  | .hbm => 58
  | .vmem => 18
  | .smem => 0
  | _ => 0

abbrev bufTy : (tb : Table) → Fin (tcTables nBuf tb) → BufTy
  | .hbm, ⟨0, _⟩ => ⟨S2x100000x16, .f32⟩
  | .hbm, ⟨1, _⟩ => ⟨S2x1080x1920x3, .f32⟩
  | .hbm, ⟨2, _⟩ => ⟨S200000x3, .i32⟩
  | .hbm, ⟨3, _⟩ => ⟨S2x1080x1920, .i32⟩
  | .hbm, ⟨4, _⟩ => ⟨S_, .i32⟩
  | .hbm, ⟨5, _⟩ => ⟨S2x1080x1920, .i32⟩
  | .hbm, ⟨6, _⟩ => ⟨S2x1080x1920, .i1⟩
  | .hbm, ⟨7, _⟩ => ⟨S_, .i32⟩
  | .hbm, ⟨8, _⟩ => ⟨S2x1080x1920, .i32⟩
  | .hbm, ⟨9, _⟩ => ⟨S2x1080x1920, .i32⟩
  | .hbm, ⟨10, _⟩ => ⟨S2x1080x1920, .i32⟩
  | .hbm, ⟨11, _⟩ => ⟨S2x1080x1920x1, .i32⟩
  | .hbm, ⟨12, _⟩ => ⟨S2x1080x1920x3, .i32⟩
  | .hbm, ⟨13, _⟩ => ⟨S2x1080x1920x1, .i32⟩
  | .hbm, ⟨14, _⟩ => ⟨S2x1080x1920, .i32⟩
  | .hbm, ⟨15, _⟩ => ⟨S2x1080x1920x1, .i32⟩
  | .hbm, ⟨16, _⟩ => ⟨S2x1080x1920, .i32⟩
  | .hbm, ⟨17, _⟩ => ⟨S2x1080x1920x1, .i32⟩
  | .hbm, ⟨18, _⟩ => ⟨S2x1080x1920, .i32⟩
  | .hbm, ⟨19, _⟩ => ⟨S_, .i32⟩
  | .hbm, ⟨20, _⟩ => ⟨S2x1080x1920, .i32⟩
  | .hbm, ⟨21, _⟩ => ⟨S2x1080x1920, .i1⟩
  | .hbm, ⟨22, _⟩ => ⟨S_, .i32⟩
  | .hbm, ⟨23, _⟩ => ⟨S2x1080x1920, .i32⟩
  | .hbm, ⟨24, _⟩ => ⟨S2x1080x1920, .i32⟩
  | .hbm, ⟨25, _⟩ => ⟨S2x1080x1920, .i32⟩
  | .hbm, ⟨26, _⟩ => ⟨S2x1080x1920x1, .i32⟩
  | .hbm, ⟨27, _⟩ => ⟨S2x1080x1920x16, .f32⟩
  | .hbm, ⟨28, _⟩ => ⟨S_, .i32⟩
  | .hbm, ⟨29, _⟩ => ⟨S2x1080x1920, .i32⟩
  | .hbm, ⟨30, _⟩ => ⟨S2x1080x1920, .i1⟩
  | .hbm, ⟨31, _⟩ => ⟨S_, .i32⟩
  | .hbm, ⟨32, _⟩ => ⟨S2x1080x1920, .i32⟩
  | .hbm, ⟨33, _⟩ => ⟨S2x1080x1920, .i32⟩
  | .hbm, ⟨34, _⟩ => ⟨S2x1080x1920, .i32⟩
  | .hbm, ⟨35, _⟩ => ⟨S2x1080x1920x1, .i32⟩
  | .hbm, ⟨36, _⟩ => ⟨S2x1080x1920x16, .f32⟩
  | .hbm, ⟨37, _⟩ => ⟨S_, .i32⟩
  | .hbm, ⟨38, _⟩ => ⟨S2x1080x1920, .i32⟩
  | .hbm, ⟨39, _⟩ => ⟨S2x1080x1920, .i1⟩
  | .hbm, ⟨40, _⟩ => ⟨S_, .i32⟩
  | .hbm, ⟨41, _⟩ => ⟨S2x1080x1920, .i32⟩
  | .hbm, ⟨42, _⟩ => ⟨S2x1080x1920, .i32⟩
  | .hbm, ⟨43, _⟩ => ⟨S2x1080x1920, .i32⟩
  | .hbm, ⟨44, _⟩ => ⟨S2x1080x1920x1, .i32⟩
  | .hbm, ⟨45, _⟩ => ⟨S2x1080x1920x16, .f32⟩
  | .hbm, ⟨46, _⟩ => ⟨S2x1080x1920x1, .f32⟩
  | .hbm, ⟨47, _⟩ => ⟨S2x1080x1920, .f32⟩
  | .hbm, ⟨48, _⟩ => ⟨S2x1080x1920x1, .f32⟩
  | .hbm, ⟨49, _⟩ => ⟨S2x1080x1920, .f32⟩
  | .hbm, ⟨50, _⟩ => ⟨S2x1080x1920x1, .f32⟩
  | .hbm, ⟨51, _⟩ => ⟨S2x1080x1920, .f32⟩
  | .hbm, ⟨52, _⟩ => ⟨S2x1080x1920x16, .f32⟩
  | .hbm, ⟨53, _⟩ => ⟨S2x1080x1920, .i32⟩
  | .hbm, ⟨54, _⟩ => ⟨S_, .i32⟩
  | .hbm, ⟨55, _⟩ => ⟨S2x1080x1920, .i32⟩
  | .hbm, ⟨56, _⟩ => ⟨S2x1080x1920, .i1⟩
  | .hbm, ⟨57, _⟩ => ⟨S2x1080x1920, .i1⟩
  | .local _ .vmem, ⟨0, _⟩ => ⟨S1x24x384, .f32⟩
  | .local _ .vmem, ⟨1, _⟩ => ⟨S1x24x384, .f32⟩
  | .local _ .vmem, ⟨2, _⟩ => ⟨S1x24x384, .f32⟩
  | .local _ .vmem, ⟨3, _⟩ => ⟨S1x24x384, .f32⟩
  | .local _ .vmem, ⟨4, _⟩ => ⟨S1x24x384, .f32⟩
  | .local _ .vmem, ⟨5, _⟩ => ⟨S1x24x384, .f32⟩
  | .local _ .vmem, ⟨6, _⟩ => ⟨S1x24x384x16, .f32⟩
  | .local _ .vmem, ⟨7, _⟩ => ⟨S1x24x384x16, .f32⟩
  | .local _ .vmem, ⟨8, _⟩ => ⟨S1x24x384x16, .f32⟩
  | .local _ .vmem, ⟨9, _⟩ => ⟨S1x24x384x16, .f32⟩
  | .local _ .vmem, ⟨10, _⟩ => ⟨S1x24x384x16, .f32⟩
  | .local _ .vmem, ⟨11, _⟩ => ⟨S1x24x384x16, .f32⟩
  | .local _ .vmem, ⟨12, _⟩ => ⟨S1x24x384, .i32⟩
  | .local _ .vmem, ⟨13, _⟩ => ⟨S1x24x384, .i32⟩
  | .local _ .vmem, ⟨14, _⟩ => ⟨S1x24x384x16, .f32⟩
  | .local _ .vmem, ⟨15, _⟩ => ⟨S1x24x384x16, .f32⟩
  | .local _ .vmem, ⟨16, _⟩ => ⟨S1x24x384, .i32⟩
  | .local _ .vmem, ⟨17, _⟩ => ⟨S1x24x384, .i32⟩
  | _, _ => ⟨S2x100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_c_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 45, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x24x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x24x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x24x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x24x384x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x24x384x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x24x384x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x24x384 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x24x384x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x24x384 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

class Facts₀ : Prop where
  bcast_S_S2x1080x1920 : S_.BroadcastsInDim S2x1080x1920 (![] : Fin 0 → Fin S2x1080x1920.rank)
  bcast_S2x1080x1920_S2x1080x1920x1_0_1_2 : S2x1080x1920.BroadcastsInDim S2x1080x1920x1 (![0, 1, 2] : Fin 3 → Fin S2x1080x1920x1.rank)
  slices_S2x1080x1920x3_S2x1080x1920x1_0_0_0_0 : S2x1080x1920x3.Slices ![0, 0, 0, 0] S2x1080x1920x1
  shapeCasts_S2x1080x1920x1_S2x1080x1920 : S2x1080x1920x1.ShapeCasts S2x1080x1920
  slices_S2x1080x1920x3_S2x1080x1920x1_0_0_0_1 : S2x1080x1920x3.Slices ![0, 0, 0, 1] S2x1080x1920x1
  slices_S2x1080x1920x3_S2x1080x1920x1_0_0_0_2 : S2x1080x1920x3.Slices ![0, 0, 0, 2] S2x1080x1920x1
  inb_S1x24x384_S1x24x384_0_0_0 : ∀ a, (![0, 0, 0] : Fin 3 → Nat) a + S1x24x384.size a ≤ S1x24x384.size a
  h_S1x24x384 : 0 < S1x24x384.numel
  shapeCasts_S1x24x384_S1x24x384 : S1x24x384.ShapeCasts S1x24x384
  shapeCasts_S1x24x384_S1x24x384x1 : S1x24x384.ShapeCasts S1x24x384x1
  inb_S1x24x384x16_S1x24x384x16_0_0_0_0 : ∀ a, (![0, 0, 0, 0] : Fin 4 → Nat) a + S1x24x384x16.size a ≤ S1x24x384x16.size a
  h_S1x24x384x16 : 0 < S1x24x384x16.numel
  shapeCasts_S1x24x384x16_S1x24x384x16 : S1x24x384x16.ShapeCasts S1x24x384x16
  broadcasts_S1x24x384x1_S1x24x384x16 : S1x24x384x1.Broadcasts S1x24x384x16
  natLt_1_32 : 1 < 32
  gather_S200000x3_S2x1080x1920x1_S2x1080x1920x3_3_0_n_n_0_3_13_wf : GatherDims.WF S200000x3 S2x1080x1920x1 S2x1080x1920x3 [3] [0] [] [0] [] 3 ![1, 3]
  gather_S2x100000x16_S2x1080x1920x1_S2x1080x1920x16_3_1_0_0_1_3_1116_wf : GatherDims.WF S2x100000x16 S2x1080x1920x1 S2x1080x1920x16 [3] [1] [0] [1] [0] 3 ![1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x24x384.size a ≤ S2x1080x1920.size a
  hwx0_0 : ∀ i : grid0.Coords, EltTy.bits .f32 = 32 ∨ (Rect.block (s := S2x1080x1920) S1x24x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x24x384.size a ≤ S2x1080x1920.size a
  hwx0_1 : ∀ i : grid0.Coords, EltTy.bits .f32 = 32 ∨ (Rect.block (s := S2x1080x1920) S1x24x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x24x384.size a ≤ S2x1080x1920.size a
  hwx0_2 : ∀ i : grid0.Coords, EltTy.bits .f32 = 32 ∨ (Rect.block (s := S2x1080x1920) S1x24x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x24x384x16.size a ≤ S2x1080x1920x16.size a
  hwx0_3 : ∀ i : grid0.Coords, EltTy.bits .f32 = 32 ∨ (Rect.block (s := S2x1080x1920x16) S1x24x384x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x24x384x16.size a ≤ S2x1080x1920x16.size a
  hwx0_4 : ∀ i : grid0.Coords, EltTy.bits .f32 = 32 ∨ (Rect.block (s := S2x1080x1920x16) S1x24x384x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x24x384x16.size a ≤ S2x1080x1920x16.size a
  hwx0_5 : ∀ i : grid0.Coords, EltTy.bits .f32 = 32 ∨ (Rect.block (s := S2x1080x1920x16) S1x24x384x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x24x384.size a ≤ S2x1080x1920.size a
  hwx0_6 : ∀ i : grid0.Coords, EltTy.bits .i32 = 32 ∨ (Rect.block (s := S2x1080x1920) S1x24x384.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x24x384x16.size a ≤ S2x1080x1920x16.size a
  hwx0_7 : ∀ i : grid0.Coords, EltTy.bits .f32 = 32 ∨ (Rect.block (s := S2x1080x1920x16) S1x24x384x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x24x384.size a ≤ S2x1080x1920.size a
  hwx0_8 : ∀ i : grid0.Coords, EltTy.bits .i32 = 32 ∨ (Rect.block (s := S2x1080x1920) S1x24x384.size (cc0_transform_8 i) (hinb0_8 i)).WholeWords (EltTy.packing .i32)

variable [Facts₀]

def gather_S200000x3_S2x1080x1920x1_S2x1080x1920x3_3_0_n_n_0_3_13 : GatherDims S200000x3 S2x1080x1920x1 S2x1080x1920x3 where
  offsetDims := [3]
  collapsedSliceDims := [0]
  operandBatchingDims := []
  startIndicesBatchingDims := []
  startIndexMap := [0]
  indexVectorDim := 3
  sliceSizes := ![1, 3]
  wf := gather_S200000x3_S2x1080x1920x1_S2x1080x1920x3_3_0_n_n_0_3_13_wf
def gather_S2x100000x16_S2x1080x1920x1_S2x1080x1920x16_3_1_0_0_1_3_1116 : GatherDims S2x100000x16 S2x1080x1920x1 S2x1080x1920x16 where
  offsetDims := [3]
  collapsedSliceDims := [1]
  operandBatchingDims := [0]
  startIndicesBatchingDims := [0]
  startIndexMap := [1]
  indexVectorDim := 3
  sliceSizes := ![1, 1, 16]
  wf := gather_S2x100000x16_S2x1080x1920x1_S2x1080x1920x16_3_1_0_0_1_3_1116_wf

abbrev win0_0 : Pipeline.Window sig grid0 :=
  Pipeline.Window.ofSpec (Memref.whole main_v35) S1x24x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x24x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x24x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x24x384x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x24x384x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x24x384x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S1x24x384.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v40_0) S1x24x384x16.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v40_1) S1x24x384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x100000x16 : Shape := ⟨3, ![2, 100000, 16]⟩
abbrev S2x1080x1920x3 : Shape := ⟨4, ![2, 1080, 1920, 3]⟩
abbrev S200000x3 : Shape := ⟨2, ![200000, 3]⟩
abbrev S2x1080x1920 : Shape := ⟨3, ![2, 1080, 1920]⟩
abbrev S_ : Shape := ⟨0, ![]⟩
abbrev S2x1080x1920x1 : Shape := ⟨4, ![2, 1080, 1920, 1]⟩
abbrev S2x1080x1920x3x1 : Shape := ⟨5, ![2, 1080, 1920, 3, 1]⟩
abbrev S2x1080x1920x3x16 : Shape := ⟨5, ![2, 1080, 1920, 3, 16]⟩
abbrev S2x1080x1920x16 : Shape := ⟨4, ![2, 1080, 1920, 16]⟩

abbrev nBuf : Space → Nat
  | .hbm => 30
  | .vmem => 0
  | .smem => 0
  | _ => 0

abbrev bufTy : (tb : Table) → Fin (tcTables nBuf tb) → BufTy
  | .hbm, ⟨0, _⟩ => ⟨S2x100000x16, .f32⟩
  | .hbm, ⟨1, _⟩ => ⟨S2x1080x1920x3, .f32⟩
  | .hbm, ⟨2, _⟩ => ⟨S200000x3, .i32⟩
  | .hbm, ⟨3, _⟩ => ⟨S2x1080x1920, .i32⟩
  | .hbm, ⟨4, _⟩ => ⟨S_, .i32⟩
  | .hbm, ⟨5, _⟩ => ⟨S2x1080x1920, .i32⟩
  | .hbm, ⟨6, _⟩ => ⟨S2x1080x1920, .i1⟩
  | .hbm, ⟨7, _⟩ => ⟨S_, .i32⟩
  | .hbm, ⟨8, _⟩ => ⟨S2x1080x1920, .i32⟩
  | .hbm, ⟨9, _⟩ => ⟨S2x1080x1920, .i32⟩
  | .hbm, ⟨10, _⟩ => ⟨S2x1080x1920, .i32⟩
  | .hbm, ⟨11, _⟩ => ⟨S2x1080x1920x1, .i32⟩
  | .hbm, ⟨12, _⟩ => ⟨S2x1080x1920x3, .i32⟩
  | .hbm, ⟨13, _⟩ => ⟨S_, .i32⟩
  | .hbm, ⟨14, _⟩ => ⟨S2x1080x1920x3, .i32⟩
  | .hbm, ⟨15, _⟩ => ⟨S2x1080x1920x3, .i1⟩
  | .hbm, ⟨16, _⟩ => ⟨S_, .i32⟩
  | .hbm, ⟨17, _⟩ => ⟨S2x1080x1920x3, .i32⟩
  | .hbm, ⟨18, _⟩ => ⟨S2x1080x1920x3, .i32⟩
  | .hbm, ⟨19, _⟩ => ⟨S2x1080x1920x3, .i32⟩
  | .hbm, ⟨20, _⟩ => ⟨S2x1080x1920x3x1, .i32⟩
  | .hbm, ⟨21, _⟩ => ⟨S2x1080x1920x3x16, .f32⟩
  | .hbm, ⟨22, _⟩ => ⟨S2x1080x1920x3x1, .f32⟩
  | .hbm, ⟨23, _⟩ => ⟨S2x1080x1920x3x16, .f32⟩
  | .hbm, ⟨24, _⟩ => ⟨S2x1080x1920x3x16, .f32⟩
  | .hbm, ⟨25, _⟩ => ⟨S_, .f32⟩
  | .hbm, ⟨26, _⟩ => ⟨S2x1080x1920x16, .f32⟩
  | .hbm, ⟨27, _⟩ => ⟨S_, .i32⟩
  | .hbm, ⟨28, _⟩ => ⟨S2x1080x1920, .i32⟩
  | .hbm, ⟨29, _⟩ => ⟨S2x1080x1920, .i1⟩
  | _, _ => ⟨S2x100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S2x1080x1920 : S_.BroadcastsInDim S2x1080x1920 (![] : Fin 0 → Fin S2x1080x1920.rank)
  bcast_S2x1080x1920_S2x1080x1920x1_0_1_2 : S2x1080x1920.BroadcastsInDim S2x1080x1920x1 (![0, 1, 2] : Fin 3 → Fin S2x1080x1920x1.rank)
  bcast_S_S2x1080x1920x3 : S_.BroadcastsInDim S2x1080x1920x3 (![] : Fin 0 → Fin S2x1080x1920x3.rank)
  bcast_S2x1080x1920x3_S2x1080x1920x3x1_0_1_2_3 : S2x1080x1920x3.BroadcastsInDim S2x1080x1920x3x1 (![0, 1, 2, 3] : Fin 4 → Fin S2x1080x1920x3x1.rank)
  bcast_S2x1080x1920x3x1_S2x1080x1920x3x16_0_1_2_3_4 : S2x1080x1920x3x1.BroadcastsInDim S2x1080x1920x3x16 (![0, 1, 2, 3, 4] : Fin 5 → Fin S2x1080x1920x3x16.rank)
  reducesTo_S2x1080x1920x3x16_S2x1080x1920x16_d3 : S2x1080x1920x3x16.ReducesTo [3] S2x1080x1920x16
  h_S_ : 0 < S_.numel
  gather_S200000x3_S2x1080x1920x1_S2x1080x1920x3_3_0_n_n_0_3_13_wf : GatherDims.WF S200000x3 S2x1080x1920x1 S2x1080x1920x3 [3] [0] [] [0] [] 3 ![1, 3]
  gather_S2x100000x16_S2x1080x1920x3x1_S2x1080x1920x3x16_4_1_0_0_1_4_1116_wf : GatherDims.WF S2x100000x16 S2x1080x1920x3x1 S2x1080x1920x3x16 [4] [1] [0] [1] [0] 4 ![1, 1, 16]

variable [Facts₀]

def gather_S200000x3_S2x1080x1920x1_S2x1080x1920x3_3_0_n_n_0_3_13 : GatherDims S200000x3 S2x1080x1920x1 S2x1080x1920x3 where
  offsetDims := [3]
  collapsedSliceDims := [0]
  operandBatchingDims := []
  startIndicesBatchingDims := []
  startIndexMap := [0]
  indexVectorDim := 3
  sliceSizes := ![1, 3]
  wf := gather_S200000x3_S2x1080x1920x1_S2x1080x1920x3_3_0_n_n_0_3_13_wf
def gather_S2x100000x16_S2x1080x1920x3x1_S2x1080x1920x3x16_4_1_0_0_1_4_1116 : GatherDims S2x100000x16 S2x1080x1920x3x1 S2x1080x1920x3x16 where
  offsetDims := [4]
  collapsedSliceDims := [1]
  operandBatchingDims := [0]
  startIndicesBatchingDims := [0]
  startIndexMap := [1]
  indexVectorDim := 4
  sliceSizes := ![1, 1, 16]
  wf := gather_S2x100000x16_S2x1080x1920x3x1_S2x1080x1920x3x16_4_1_0_0_1_4_1116_wf

class Facts : Prop extends Facts₀ where

variable [Facts]
-- ==== Proof.Interp.lean ====
/-
  Barycentric interpolation of per-vertex attributes over a rasterised image, as ONE function of the arrays.

  A pixel (b, h, q) of image b is covered by a triangle whose three vertex numbers are read from a
  table of per-pixel corner indices `fidx`.  A corner index is first normalised the way array
  indexing reads a negative number (counting from the end: `x + 100000` when `x < 0`), then read as a
  signed integer and clamped into the table's row range `[0, 99999]`.  Feature `e` of the pixel is
        Σ_{k < 3}  bary[b, h, q, k] · attr[b, vertex_k(b, h, q), e]
  written here as the left-nested three-term sum.  The pixel is "covered" when its face number is
  not the background marker −1 (the all-ones word).
-/
import Idealize.ShloMosaic.PureOps.Ideal
import Idealize.ShloMosaic.Lib.ValueIdx

noncomputable section

namespace Cert.Interp

open Idealize.ShloMosaic Idealize.ShloMosaic.ValueIdx

/-- The attribute table: 2 images × 100000 vertices × 16 features. -/
abbrev Tbl : Shape := ⟨3, ![2, 100000, 16]⟩
/-- Per pixel and per triangle corner. -/
abbrev Img3 : Shape := ⟨4, ![2, 1080, 1920, 3]⟩
/-- Per pixel and per feature. -/
abbrev Img16 : Shape := ⟨4, ![2, 1080, 1920, 16]⟩
/-- Per pixel. -/
abbrev Img : Shape := ⟨3, ![2, 1080, 1920]⟩

/-- A start-index word read as a table row: signed, clamped into `[0, 99999]`. -/
def rowOf (x : BitVec 32) : Fin 100000 := ⟨min x.toInt.toNat 99999, by omega⟩

/-- Index normalisation: a negative index counts from the end of an axis of extent `n`. -/
def wrap (n x : BitVec 32) : BitVec 32 := Scalar.select (IntOp.cmpi .slt x 0#32) (IntOp.addi x n) x

/-- The vertex (table row) at corner `k` of the triangle covering pixel `(b, h, q)`. -/
def vertexOf (fidx : Img3.Idx → BitVec 32) (b : Fin 2) (h : Fin 1080) (q : Fin 1920) (k : Fin 3) : Fin 100000 :=
  rowOf (wrap 100000#32 (fidx (ix4 b h q k)))

/-- Feature `e` of pixel `(b, h, q)`: the barycentric combination of the three corners' attributes. -/
def interpAt (attr : Tbl.Idx → EReal) (bary : Img3.Idx → EReal) (fidx : Img3.Idx → BitVec 32)
    (b : Fin 2) (h : Fin 1080) (q : Fin 1920) (e : Fin 16) : EReal :=
  bary (ix4 b h q (0 : Fin 3)) * attr (ix3 b (vertexOf fidx b h q 0) e)
    + bary (ix4 b h q (1 : Fin 3)) * attr (ix3 b (vertexOf fidx b h q 1) e)
    + bary (ix4 b h q (2 : Fin 3)) * attr (ix3 b (vertexOf fidx b h q 2) e)

/-- The interpolated image, index by index. -/
def interp (attr : Tbl.Idx → EReal) (bary : Img3.Idx → EReal) (fidx : Img3.Idx → BitVec 32) : Img16.Idx → EReal :=
  fun i => interpAt attr bary fidx (i 0) (i 1) (i 2) (i 3)

theorem interp_ix4 (attr : Tbl.Idx → EReal) (bary : Img3.Idx → EReal) (fidx : Img3.Idx → BitVec 32)
    (b : Fin 2) (h : Fin 1080) (q : Fin 1920) (e : Fin 16) :
    interp attr bary fidx (ix4 b h q e) = interpAt attr bary fidx b h q e := rfl

/-- The coverage mask: a pixel's face number is not the background marker `-1`. -/
def covered (pf : Img.Idx → BitVec 32) : Img.Idx → BitVec 1 :=
  fun i => IntOp.cmpi .ne (pf i) 4294967295#32

end Cert.Interp

end
-- ==== Proof.GatherRow.lean ====
/-
  A batched row gather read at an index.

  `attr[b, idx[b, …]]` — for each image `b`, a gather of rows of that image's own table — lowers to
  a gather whose operand axis 0 is a BATCHING axis (paired with axis 0 of the start indices), whose
  axis 1 is collapsed and start-indexed, and whose axis 2 is the one offset axis (the whole row of
  16 features).  Read at a result index, the operand index is, axis by axis: the result's batch
  coordinate; the start index word read signed and clamped into `[0, 99999]`; the result's feature
  coordinate.  Two arrangements of the start indices occur: one index per pixel, and one per pixel
  and triangle corner.
-/
import Idealize.ShloMosaic.PureOps.Ideal
import Idealize.ShloMosaic.Lib.ValueIdx
import proofs.«141575_j47845935678015_1_alg».proof.Proof.Interp

noncomputable section

namespace Cert.Interp

open Idealize.ShloMosaic Idealize.ShloMosaic.ValueIdx

/-- Start indices: one per pixel. -/
abbrev Px1 : Shape := ⟨4, ![2, 1080, 1920, 1]⟩
/-- Start indices: one per pixel and corner. -/
abbrev Px3x1 : Shape := ⟨5, ![2, 1080, 1920, 3, 1]⟩
/-- Gathered rows per pixel and corner. -/
abbrev Px3x16 : Shape := ⟨5, ![2, 1080, 1920, 3, 16]⟩

/-- The dimension numbers of the per-pixel batched row gather. -/
def dimsPx : GatherDims Tbl Px1 Img16 where
  offsetDims := [3]
  collapsedSliceDims := [1]
  operandBatchingDims := [0]
  startIndicesBatchingDims := [0]
  startIndexMap := [1]
  indexVectorDim := 3
  sliceSizes := ![1, 1, 16]

/-- The dimension numbers of the per-pixel-and-corner batched row gather. -/
def dimsPx3 : GatherDims Tbl Px3x1 Px3x16 where
  offsetDims := [4]
  collapsedSliceDims := [1]
  operandBatchingDims := [0]
  startIndicesBatchingDims := [0]
  startIndexMap := [1]
  indexVectorDim := 4
  sliceSizes := ![1, 1, 16]

/-- The per-pixel gather at `(b, h, q, e)`: row `rowOf idx[b, h, q, 0]` of image `b`'s table, feature `e`. -/
theorem gather_dimsPx_apply {α : Type} (x : Tbl.Idx → α) (idx : IVec Px1 32)
    (b : Fin 2) (h : Fin 1080) (q : Fin 1920) (e : Fin 16) :
    Host.gather dimsPx x idx (ix4 b h q e) = x (ix3 b (rowOf (idx (ix4 b h q (0 : Fin 1)))) e) := by
  -- the two sides read `x` at indices that agree on each of the operand's three axes
  unfold Host.gather
  congr 1
  funext a
  refine Fin.ext ?_
  show dimsPx.start (ix4 b h q e) idx a + dimsPx.batchCoord (ix4 b h q e) a + dimsPx.offCoord (ix4 b h q e) a = _
  match a with
  | ⟨0, _⟩ =>
    -- the batching axis: no start, no offset; the batch coordinate is the result's coordinate 0
    have hb : (⟨0, by decide⟩ : Fin Tbl.rank) ∈ dimsPx.operandBatchingDims := by decide
    have ho : dimsPx.offCoord (ix4 b h q e) ⟨0, by decide⟩ = 0 := GatherDims.offCoord_eq_zero _ _ _ (by decide)
    have hbc : dimsPx.batchCoord (ix4 b h q e) ⟨0, by decide⟩ = b.val := rfl
    rw [GatherDims.start_batching _ _ _ _ hb, ho, hbc]
    simp
  | ⟨1, _⟩ =>
    -- the collapsed, start-indexed axis: no batch coordinate, no offset; the start is the index word at
    -- `(b, h, q, 0)` read signed and clamped to `100000 - 1`
    have hbc : dimsPx.batchCoord (ix4 b h q e) ⟨1, by decide⟩ = 0 := GatherDims.batchCoord_eq_zero _ _ _ (by decide)
    have ho : dimsPx.offCoord (ix4 b h q e) ⟨1, by decide⟩ = 0 := GatherDims.offCoord_eq_zero _ _ _ (by decide)
    rw [hbc, ho]
    have hm : (⟨1, by decide⟩ : Fin Tbl.rank) ∈ dimsPx.startIndexMap := by decide
    have hsi : dimsPx.siIdx (ix4 b h q e) ⟨dimsPx.startIndexMap.idxOf (⟨1, by decide⟩ : Fin Tbl.rank),
        List.idxOf_lt_length_iff.2 hm⟩ = ix4 b h q (0 : Fin 1) := by
      funext c; refine Fin.ext ?_
      match c with
      | ⟨0, _⟩ => rfl
      | ⟨1, _⟩ => rfl
      | ⟨2, _⟩ => rfl
      | ⟨3, _⟩ => rfl
    unfold GatherDims.start
    rw [dif_pos hm, hsi]
    rfl
  | ⟨2, _⟩ =>
    -- the offset axis: not start-indexed, not batching; the offset is the result's feature coordinate
    have hbc : dimsPx.batchCoord (ix4 b h q e) ⟨2, by decide⟩ = 0 := GatherDims.batchCoord_eq_zero _ _ _ (by decide)
    have hs : dimsPx.start (ix4 b h q e) idx ⟨2, by decide⟩ = 0 := by
      unfold GatherDims.start
      rw [dif_neg (by decide)]
    have ho : dimsPx.offCoord (ix4 b h q e) ⟨2, by decide⟩ = e.val := rfl
    rw [hbc, hs, ho]
    simp

/-- The per-pixel-and-corner gather at `(b, h, q, k, e)`: row `rowOf idx[b, h, q, k, 0]` of image `b`'s table,
    feature `e`. -/
theorem gather_dimsPx3_apply {α : Type} (x : Tbl.Idx → α) (idx : IVec Px3x1 32)
    (b : Fin 2) (h : Fin 1080) (q : Fin 1920) (k : Fin 3) (e : Fin 16) :
    Host.gather dimsPx3 x idx (ix5 b h q k e) = x (ix3 b (rowOf (idx (ix5 b h q k (0 : Fin 1)))) e) := by
  -- as for the per-pixel gather, with the corner axis `k` one more batch axis of the result
  unfold Host.gather
  congr 1
  funext a
  refine Fin.ext ?_
  show dimsPx3.start (ix5 b h q k e) idx a + dimsPx3.batchCoord (ix5 b h q k e) a
    + dimsPx3.offCoord (ix5 b h q k e) a = _
  match a with
  | ⟨0, _⟩ =>
    -- the batching axis: the batch coordinate is the result's coordinate 0
    have hb : (⟨0, by decide⟩ : Fin Tbl.rank) ∈ dimsPx3.operandBatchingDims := by decide
    have ho : dimsPx3.offCoord (ix5 b h q k e) ⟨0, by decide⟩ = 0 := GatherDims.offCoord_eq_zero _ _ _ (by decide)
    have hbc : dimsPx3.batchCoord (ix5 b h q k e) ⟨0, by decide⟩ = b.val := rfl
    rw [GatherDims.start_batching _ _ _ _ hb, ho, hbc]
    simp
  | ⟨1, _⟩ =>
    -- the collapsed, start-indexed axis: the start is the index word at `(b, h, q, k, 0)`, signed and clamped
    have hbc : dimsPx3.batchCoord (ix5 b h q k e) ⟨1, by decide⟩ = 0 := GatherDims.batchCoord_eq_zero _ _ _ (by decide)
    have ho : dimsPx3.offCoord (ix5 b h q k e) ⟨1, by decide⟩ = 0 := GatherDims.offCoord_eq_zero _ _ _ (by decide)
    rw [hbc, ho]
    have hm : (⟨1, by decide⟩ : Fin Tbl.rank) ∈ dimsPx3.startIndexMap := by decide
    have hsi : dimsPx3.siIdx (ix5 b h q k e) ⟨dimsPx3.startIndexMap.idxOf (⟨1, by decide⟩ : Fin Tbl.rank),
        List.idxOf_lt_length_iff.2 hm⟩ = ix5 b h q k (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    unfold GatherDims.start
    rw [dif_pos hm, hsi]
    rfl
  | ⟨2, _⟩ =>
    -- the offset axis: the offset is the result's feature coordinate
    have hbc : dimsPx3.batchCoord (ix5 b h q k e) ⟨2, by decide⟩ = 0 := GatherDims.batchCoord_eq_zero _ _ _ (by decide)
    have hs : dimsPx3.start (ix5 b h q k e) idx ⟨2, by decide⟩ = 0 := by
      unfold GatherDims.start
      rw [dif_neg (by decide)]
    have ho : dimsPx3.offCoord (ix5 b h q k e) ⟨2, by decide⟩ = e.val := rfl
    rw [hbc, hs, ho]
    simp

end Cert.Interp

end
-- ==== Proof.RefInterp.lean ====
/-
  The reference program's two results, read index by index.

  The first result is the sum over the three triangle corners `k` of `bary[b,h,q,k] · attr[b, vertex_k, e]`,
  the host's sum being the initial value `0` plus the finite sum over `k`; with `0 + x = x` and the three
  terms written out it is the left-nested combination `Interp.interp` states.  The vertex is read by the
  batched row gather at the per-pixel-and-corner index array, which is the corner-index table normalised
  (a negative index counts from the end).  The second result is the comparison of the face number with the
  background marker.
-/
import proofs.«141575_j47845935678015_1_alg».proof.Proof.Gen.ReferenceIdeal.Read
import proofs.«141575_j47845935678015_1_alg».proof.Proof.Interp
import proofs.«141575_j47845935678015_1_alg».proof.Proof.GatherRow

noncomputable section

namespace Cert.RefInterp

open Cert.ReferenceIdeal Cert.ReferenceIdeal.Gen Cert.ReferenceIdeal.Read Cert.Interp
open Idealize.ShloMosaic Idealize.ShloMosaic.ValueIdx

/-- The reference's per-corner gather is the batched row gather of `GatherRow`. -/
theorem dims_eq : gather_S2x100000x16_S2x1080x1920x3x1_S2x1080x1920x3x16_4_1_0_0_1_4_1116 = dimsPx3 := rfl

/-- The reduced axis put back: at pixel `(b, h, q)` and feature `e`, the term of corner `k` is read at
    `(b, h, q, k, e)`. -/
theorem idx17_ix4 (b : Fin 2) (h : Fin 1080) (q : Fin 1920) (e : Fin 16) (k : Fin 3) :
    idx_main_v17 (ix4 b h q e) k = ix5 b h q k e :=
  funext fun a => Fin.ext (by match a with | ⟨0, _⟩ => rfl | ⟨1, _⟩ => rfl | ⟨2, _⟩ => rfl | ⟨3, _⟩ => rfl | ⟨4, _⟩ => rfl)

/-- The two broadcasts of the weights read the weight of the pixel and corner, whatever the feature. -/
theorem idx14_15_ix5 (b : Fin 2) (h : Fin 1080) (q : Fin 1920) (k : Fin 3) (e : Fin 16) :
    idx_main_v14 (idx_main_v15 (ix5 b h q k e)) = ix4 b h q k :=
  funext fun a => Fin.ext (by match a with | ⟨0, _⟩ => rfl | ⟨1, _⟩ => rfl | ⟨2, _⟩ => rfl | ⟨3, _⟩ => rfl)

/-- The broadcast of the normalised corner indices reads the index of the pixel and corner. -/
theorem idx12_ix5 (b : Fin 2) (h : Fin 1080) (q : Fin 1920) (k : Fin 3) (z : Fin 1) :
    idx_main_v12 (ix5 b h q k z) = ix4 b h q k :=
  funext fun a => Fin.ext (by match a with | ⟨0, _⟩ => rfl | ⟨1, _⟩ => rfl | ⟨2, _⟩ => rfl | ⟨3, _⟩ => rfl)

/-- The weight factor of a term: `bary[b, h, q, k]`. -/
theorem v15_ix5 (x1 : (⟨S2x1080x1920x3, .f32⟩ : BufTy).Contents (Elt Ideal))
    (b : Fin 2) (h : Fin 1080) (q : Fin 1920) (k : Fin 3) (e : Fin 16) :
    val_main_v15 (F := Ideal) x1 (ix5 b h q k e) = x1 (ix4 b h q k) := by
  rw [val_main_v15_apply, val_main_v14_apply, idx14_15_ix5]

/-- The start-index word of the row gather is the corner index normalised: `x + 100000` when `x < 0`, else `x`. -/
theorem v12_ix5 (x2 : (⟨S200000x3, .i32⟩ : BufTy).Contents (Elt Ideal)) (x3 : (⟨S2x1080x1920, .i32⟩ : BufTy).Contents (Elt Ideal))
    (b : Fin 2) (h : Fin 1080) (q : Fin 1920) (k : Fin 3) (z : Fin 1) :
    val_main_v12 (F := Ideal) x2 x3 (ix5 b h q k z) = wrap 100000#32 (val_main_v6 (F := Ideal) x2 x3 (ix4 b h q k)) := by
  rw [val_main_v12_apply, idx12_ix5, val_main_v11_apply, val_main_v8_apply, val_main_v10_apply, val_main_v7_apply,
    val_main_v9_apply, val_main_c_1_apply, val_main_c_2_apply]
  rfl

/-- The attribute factor of a term: the table of image `b` at the corner's vertex, feature `e`. -/
theorem v13_ix5 (x0 : (⟨S2x100000x16, .f32⟩ : BufTy).Contents (Elt Ideal))
    (x2 : (⟨S200000x3, .i32⟩ : BufTy).Contents (Elt Ideal)) (x3 : (⟨S2x1080x1920, .i32⟩ : BufTy).Contents (Elt Ideal))
    (b : Fin 2) (h : Fin 1080) (q : Fin 1920) (k : Fin 3) (e : Fin 16) :
    val_main_v13 (F := Ideal) x0 x2 x3 (ix5 b h q k e)
      = x0 (ix3 b (vertexOf (val_main_v6 (F := Ideal) x2 x3) b h q k) e) := by
  unfold val_main_v13
  rw [dims_eq, gather_dimsPx3_apply, v12_ix5]
  rfl

/-- One term of the sum: `bary[b, h, q, k] · attr[b, vertex_k, e]`. -/
theorem v16_ix5 (x0 : (⟨S2x100000x16, .f32⟩ : BufTy).Contents (Elt Ideal)) (x1 : (⟨S2x1080x1920x3, .f32⟩ : BufTy).Contents (Elt Ideal))
    (x2 : (⟨S200000x3, .i32⟩ : BufTy).Contents (Elt Ideal)) (x3 : (⟨S2x1080x1920, .i32⟩ : BufTy).Contents (Elt Ideal))
    (b : Fin 2) (h : Fin 1080) (q : Fin 1920) (k : Fin 3) (e : Fin 16) :
    val_main_v16 (F := Ideal) x0 x1 x2 x3 (ix5 b h q k e)
      = x1 (ix4 b h q k) * x0 (ix3 b (vertexOf (val_main_v6 (F := Ideal) x2 x3) b h q k) e) := by
  rw [val_main_v16_apply, v15_ix5, v13_ix5]
  rfl

/-- The reference's first result is the interpolated image of its arguments, the corner-index table being its
    own face gather `val_main_v6`. -/
theorem out_eq (x0 : (⟨S2x100000x16, .f32⟩ : BufTy).Contents (Elt Ideal)) (x1 : (⟨S2x1080x1920x3, .f32⟩ : BufTy).Contents (Elt Ideal))
    (x2 : (⟨S200000x3, .i32⟩ : BufTy).Contents (Elt Ideal)) (x3 : (⟨S2x1080x1920, .i32⟩ : BufTy).Contents (Elt Ideal)) :
    val_main_v17 (F := Ideal) x0 x1 x2 x3 = interp x0 x1 (val_main_v6 (F := Ideal) x2 x3) := by
  funext i
  obtain ⟨b, h, q, e, rfl⟩ : ∃ (b : Fin 2) (h : Fin 1080) (q : Fin 1920) (e : Fin 16), i = ix4 b h q e :=
    ⟨i 0, i 1, i 2, i 3, eq_ix4 i⟩
  rw [val_main_v17_apply, interp_ix4, val_main_cst_apply, Ideal.ofBits_def, Ideal.ofBits_zero_f32, zero_add,
    Fin.sum_univ_three, idx17_ix4, idx17_ix4, idx17_ix4, v16_ix5, v16_ix5, v16_ix5]
  rfl

/-- The reference's second result is the coverage mask of the face numbers. -/
theorem mask_eq (x3 : (⟨S2x1080x1920, .i32⟩ : BufTy).Contents (Elt Ideal)) :
    val_main_v19 (F := Ideal) x3 = covered x3 := by
  funext i
  rw [val_main_v19_apply, val_main_v18_apply, val_main_c_3_apply]
  rfl

end Cert.RefInterp

end
-- ==== Proof.KHost.lean ====
/-
  The arrays the kernel region finds, as terms of the program's arguments.

  Before the region the program splits the barycentric weights into three per-pixel arrays (the unit slice at
  corner `k` of the last axis, reshaped), gathers the corner-index table `faceIdx` (the rows of `faces` at the
  normalised face numbers), splits it the same way into three per-pixel vertex-number arrays, and for each
  gathers the vertices' attribute rows (the batched row gather at the normalised vertex numbers).
-/
import proofs.«141575_j47845935678015_1_alg».proof.Proof.Gen.KernelIdeal.Frame
import Idealize.ShloMosaic.Lib.StableHlo.Run

set_option maxRecDepth 16384

noncomputable section

namespace Cert.KVal

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A per-pixel word array with negative entries counted from the end of an axis of extent `n`. -/
abbrev wrapPx (n : BitVec 32) (s : IVec S2x1080x1920 32) : IVec S2x1080x1920 32 :=
  select (cmpi .slt s (broadcastInDim S2x1080x1920 ![] bcast_S_S2x1080x1920 (constantI S_ 32 0#32)))
    (addi s (broadcastInDim S2x1080x1920 ![] bcast_S_S2x1080x1920 (constantI S_ 32 n))) s

/-- The corner-index table: for each pixel the three vertex numbers of its face. -/
abbrev faceIdx (c : Dev nD) : IVec S2x1080x1920x3 32 :=
  Host.gather gather_S200000x3_S2x1080x1920x1_S2x1080x1920x3_3_0_n_n_0_3_13 (m ((c : Thread nD τ).loc main_arg2))
    (broadcastInDim S2x1080x1920x1 ![0, 1, 2] bcast_S2x1080x1920_S2x1080x1920x1_0_1_2 (wrapPx 200000#32 (m ((c : Thread nD τ).loc main_arg3))))

/-- Corner `off`'s slice of a per-pixel-and-corner array, as a per-pixel array. -/
abbrev cornerOf {α : Type} (off : Fin 4 → Nat) (hs : S2x1080x1920x3.Slices off S2x1080x1920x1) (x : S2x1080x1920x3.Idx → α) : S2x1080x1920.Idx → α :=
  shapeCast S2x1080x1920 (extractStridedSlice S2x1080x1920x1 off x hs) shapeCasts_S2x1080x1920x1_S2x1080x1920

/-- The attribute rows at a per-pixel array of vertex numbers. -/
abbrev rowsAt (c : Dev nD) (s : IVec S2x1080x1920 32) : S2x1080x1920x16.Idx → Elt F .f32 :=
  Host.gather gather_S2x100000x16_S2x1080x1920x1_S2x1080x1920x16_3_1_0_0_1_3_1116 (m ((c : Thread nD τ).loc main_arg0))
    (broadcastInDim S2x1080x1920x1 ![0, 1, 2] bcast_S2x1080x1920_S2x1080x1920x1_0_1_2 (wrapPx 100000#32 s))

theorem weights0 (c : Dev nD) : (V m c main_v35 : S2x1080x1920.Idx → Elt F .f32)
    = cornerOf ![0, 0, 0, 0] slices_S2x1080x1920x3_S2x1080x1920x1_0_0_0_0 (m ((c : Thread nD τ).loc main_arg1)) := by
  show StableHlo.after hostOps0 (fun b => m (c, b)) (Proc.devRef .tc main_v35) = _
  after_results
  rfl
theorem weights1 (c : Dev nD) : (V m c main_v37 : S2x1080x1920.Idx → Elt F .f32)
    = cornerOf ![0, 0, 0, 1] slices_S2x1080x1920x3_S2x1080x1920x1_0_0_0_1 (m ((c : Thread nD τ).loc main_arg1)) := by
  show StableHlo.after hostOps0 (fun b => m (c, b)) (Proc.devRef .tc main_v37) = _
  after_results
  rfl
theorem weights2 (c : Dev nD) : (V m c main_v39 : S2x1080x1920.Idx → Elt F .f32)
    = cornerOf ![0, 0, 0, 2] slices_S2x1080x1920x3_S2x1080x1920x1_0_0_0_2 (m ((c : Thread nD τ).loc main_arg1)) := by
  show StableHlo.after hostOps0 (fun b => m (c, b)) (Proc.devRef .tc main_v39) = _
  after_results
  rfl

set_option maxHeartbeats 4000000 in
theorem rows0 (c : Dev nD) : (V m c main_v19 : S2x1080x1920x16.Idx → Elt F .f32)
    = rowsAt m c (cornerOf ![0, 0, 0, 0] slices_S2x1080x1920x3_S2x1080x1920x1_0_0_0_0 (faceIdx m c)) := by
  show StableHlo.after hostOps0 (fun b => m (c, b)) (Proc.devRef .tc main_v19) = _
  after_results
  rfl
set_option maxHeartbeats 4000000 in
theorem rows1 (c : Dev nD) : (V m c main_v26 : S2x1080x1920x16.Idx → Elt F .f32)
    = rowsAt m c (cornerOf ![0, 0, 0, 1] slices_S2x1080x1920x3_S2x1080x1920x1_0_0_0_1 (faceIdx m c)) := by
  show StableHlo.after hostOps0 (fun b => m (c, b)) (Proc.devRef .tc main_v26) = _
  after_results
  rfl
set_option maxHeartbeats 4000000 in
theorem rows2 (c : Dev nD) : (V m c main_v33 : S2x1080x1920x16.Idx → Elt F .f32)
    = rowsAt m c (cornerOf ![0, 0, 0, 2] slices_S2x1080x1920x3_S2x1080x1920x1_0_0_0_2 (faceIdx m c)) := by
  show StableHlo.after hostOps0 (fun b => m (c, b)) (Proc.devRef .tc main_v33) = _
  after_results
  rfl

end Cert.KVal

end
-- ==== Proof.Layout.lean ====
/-
  Small layout facts at literal image shapes, each an operation read at one index.

  * Corner `k` of a per-pixel-and-corner array, taken as the unit slice at offset `k` on the last axis and
    reshaped to a per-pixel array, reads at pixel `(b, h, q)` the array at `(b, h, q, k)`: the slice shifts the
    last coordinate by `k`, and dropping a trailing unit axis keeps the row-major position.
  * A per-pixel array given a trailing unit axis reads at `(b, h, q, 0)` the array at `(b, h, q)`.
  * A block of `24 × 384` per-pixel weights given a trailing unit axis and broadcast along 16 features reads
    at `(0, r, s, e)` the weight at `(0, r, s)`.
  * A one-bit flag widened to a word is non-zero exactly when the flag is set.
-/
import Idealize.ShloMosaic.PureOps.Ideal
import Idealize.ShloMosaic.Lib.ValueIdx
import Idealize.ShloMosaic.Lib.Pipeline.Value
import proofs.«141575_j47845935678015_1_alg».proof.Proof.Interp
import proofs.«141575_j47845935678015_1_alg».proof.Proof.GatherRow

noncomputable section

namespace Cert.Interp

open Idealize.ShloMosaic Idealize.ShloMosaic.ValueIdx

/-- Corner `k` of `x`, as a per-pixel array, at pixel `(b, h, q)`. -/
theorem corner_apply {α : Type} (x : Img3.Idx → α) (off : Fin 4 → Nat) (hs : Img3.Slices off Px1) (hc : Px1.ShapeCasts Img)
    (k : Fin 3) (h0 : off 0 = 0) (h1 : off 1 = 0) (h2 : off 2 = 0) (h3 : off 3 = k.val)
    (b : Fin 2) (h : Fin 1080) (q : Fin 1920) :
    shapeCast Img (extractStridedSlice Px1 off x hs) hc (ix3 b h q) = x (ix4 b h q k) := by
  refine (shapeCast_apply _ hc (ix3 b h q) (ix4 b h q (0 : Fin 1)) ?_).trans ?_
  · rw [Shape.rowMajor_val_four, Shape.rowMajor_val_three]
    show (((b.val * 1080 + h.val) * 1920 + q.val) * 1 + 0) = ((b.val * 1080 + h.val) * 1920 + q.val)
    omega
  · refine extractStridedSlice_apply off x hs (ix4 b h q (0 : Fin 1)) (ix4 b h q k) fun a => ?_
    match a with
    | ⟨0, _⟩ => show b.val = off 0 + b.val; rw [h0]; omega
    | ⟨1, _⟩ => show h.val = off 1 + h.val; rw [h1]; omega
    | ⟨2, _⟩ => show q.val = off 2 + q.val; rw [h2]; omega
    | ⟨3, _⟩ => show k.val = off 3 + 0; rw [h3]; omega

/-- A per-pixel array with a trailing unit axis, at `(b, h, q, 0)`. -/
theorem trailing_unit_apply {α : Type} (s : Img.Idx → α) (hb : Img.BroadcastsInDim Px1 ![0, 1, 2])
    (b : Fin 2) (h : Fin 1080) (q : Fin 1920) :
    broadcastInDim Px1 ![0, 1, 2] hb s (ix4 b h q (0 : Fin 1)) = s (ix3 b h q) := by
  refine broadcastInDim_apply _ hb s _ (ix3 b h q) fun a => ?_
  match a with
  | ⟨0, _⟩ => show b.val = if (2 : Nat) = 1 then 0 else b.val; rw [if_neg (by decide)]
  | ⟨1, _⟩ => show h.val = if (1080 : Nat) = 1 then 0 else h.val; rw [if_neg (by decide)]
  | ⟨2, _⟩ => show q.val = if (1920 : Nat) = 1 then 0 else q.val; rw [if_neg (by decide)]

/-- A scalar splat over any shape reads the scalar. -/
theorem splat_apply {t : Shape} {w : Nat} (v : BitVec w) (hb : (⟨0, ![]⟩ : Shape).BroadcastsInDim t (![] : Fin 0 → Fin t.rank)) (i : t.Idx) :
    broadcastInDim t ![] hb (constantI ⟨0, ![]⟩ w v) i = v := rfl

/-- One block of per-pixel weights. -/
abbrev Blk : Shape := ⟨3, ![1, 24, 384]⟩
/-- The same with a trailing unit axis. -/
abbrev Blk1 : Shape := ⟨4, ![1, 24, 384, 1]⟩
/-- One block of per-pixel features. -/
abbrev Blk16 : Shape := ⟨4, ![1, 24, 384, 16]⟩

/-- A weight block laid along the 16 features, at `(0, r, s, e)`. -/
theorem weight_apply {α : Type} (x : Blk.Idx → α) (h1 : Blk.ShapeCasts Blk1) (hb : Blk1.Broadcasts Blk16)
    (z : Fin 1) (r : Fin 24) (s : Fin 384) (e : Fin 16) :
    broadcastTo Blk16 (shapeCast Blk1 x h1) hb (ix4 z r s e) = x (ix3 z r s) := by
  refine (broadcastTo_apply _ hb (ix4 z r s e) (ix4 z r s (0 : Fin 1)) fun a => ?_).trans ?_
  · match a with
    | ⟨0, _⟩ => show z.val = if (1 : Nat) = 1 then 0 else z.val; rw [if_pos rfl]; omega
    | ⟨1, _⟩ => show r.val = if (24 : Nat) = 1 then 0 else r.val; rw [if_neg (by decide)]
    | ⟨2, _⟩ => show s.val = if (384 : Nat) = 1 then 0 else s.val; rw [if_neg (by decide)]
    | ⟨3, _⟩ => show 0 = if (1 : Nat) = 1 then 0 else e.val; rw [if_pos rfl]
  · refine shapeCast_apply _ h1 (ix4 z r s (0 : Fin 1)) (ix3 z r s) ?_
    rw [Shape.rowMajor_val_four, Shape.rowMajor_val_three]
    show ((z.val * 24 + r.val) * 384 + s.val) = (((z.val * 24 + r.val) * 384 + s.val) * 1 + 0)
    omega

/-- A flag widened to a word is non-zero exactly when it is set. -/
theorem widened_ne_zero (f : BitVec 1) : IntOp.cmpi .ne (f.setWidth 32) 0#32 = f := by
  revert f; decide

end Cert.Interp

end
-- ==== Proof.KBody.lean ====
/-
  What the kernel body leaves in its two output blocks, index by index.

  At feature `e` of block pixel `(r, s)` the feature block holds
        w0[r, s] · a0[r, s, e] + w1[r, s] · a1[r, s, e] + w2[r, s] · a2[r, s, e]
  (each weight block laid along the 16 features, then two products added to the third, left-nested);
  the mask block holds, as a word, whether the pixel's face number differs from the background marker.
-/
import proofs.«141575_j47845935678015_1_alg».proof.Proof.Gen.KernelIdeal.Frame
import proofs.«141575_j47845935678015_1_alg».proof.Proof.Layout

noncomputable section

namespace Cert.KVal

open Cert.KernelIdeal Cert.KernelIdeal.Gen Cert.Interp
open Idealize.ShloMosaic Idealize.ShloMosaic.ValueIdx

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The feature block after the body, at `(0, r, s, e)`. -/
theorem out7_apply (x0 x1 x2 : Vec Ideal S1x24x384 .f32) (x3 x4 x5 : Vec Ideal S1x24x384x16 .f32) (x6 : Vec Ideal S1x24x384 .i32)
    (z : Fin 1) (r : Fin 24) (s : Fin 384) (e : Fin 16) :
    out0_7 x0 x1 x2 x3 x4 x5 x6 (ix4 z r s e)
      = x0 (ix3 z r s) * x3 (ix4 z r s e) + x1 (ix3 z r s) * x4 (ix4 z r s e) + x2 (ix3 z r s) * x5 (ix4 z r s e) := by
  unfold out0_7
  rw [View.canon_unit_zero zeros4]
  simp only [View.ld_unit_zero (S := S1x24x384) zeros3, View.ld_unit_zero (S := S1x24x384x16) zeros4]
  unfold k0_pay2
  simp only [addf_apply, mulf_apply, shapeCast_self, weight_apply]

/-- A feature-block index with its feature coordinate dropped: the pixel inside the block. -/
abbrev pxOf (y : S1x24x384x16.Idx) : S1x24x384.Idx := ix3 (y 0) (y 1) (y 2)

/-- The feature block after the body, at any index. -/
theorem out7_at (x0 x1 x2 : Vec Ideal S1x24x384 .f32) (x3 x4 x5 : Vec Ideal S1x24x384x16 .f32) (x6 : Vec Ideal S1x24x384 .i32)
    (y : S1x24x384x16.Idx) :
    out0_7 x0 x1 x2 x3 x4 x5 x6 y = x0 (pxOf y) * x3 y + x1 (pxOf y) * x4 y + x2 (pxOf y) * x5 y := by
  obtain ⟨z, r, s, e, rfl⟩ : ∃ (z : Fin 1) (r : Fin 24) (s : Fin 384) (e : Fin 16), y = ix4 z r s e :=
    ⟨y 0, y 1, y 2, y 3, eq_ix4 y⟩
  exact out7_apply x0 x1 x2 x3 x4 x5 x6 z r s e

/-- The mask block after the body, at `(0, r, s)`. -/
theorem out8_apply (x0 x1 x2 : Vec Ideal S1x24x384 .f32) (x3 x4 x5 : Vec Ideal S1x24x384x16 .f32) (x6 : Vec Ideal S1x24x384 .i32)
    (j : S1x24x384.Idx) :
    out0_8 x0 x1 x2 x3 x4 x5 x6 j = (IntOp.cmpi .ne (x6 j) 4294967295#32).setWidth 32 := by
  unfold out0_8
  rw [View.canon_unit_zero zeros3]
  simp only [View.ld_unit_zero (S := S1x24x384) zeros3]
  rfl

end Cert.KVal

end
-- ==== Proof.KGrid.lean ====
/-
  The grid of the kernel region, decided over its 450 points.

  Every grid point `t = (b, i, j)` of the `2 × 45 × 5` grid works on the block at block index `(b, i, j)` of each
  per-pixel array and `(b, i, j, 0)` of each per-feature array: all nine index maps name the same block.  The
  points come in row-major order, so point `t` is block `(t / 225, t / 5 mod 45, t mod 5)`.
-/
import proofs.«141575_j47845935678015_1_alg».proof.Proof.Gen.KernelIdeal.Frame

set_option maxRecDepth 16384
-- the facts decided over the grid's 450 points are checked one at a time
set_option Elab.async false

noncomputable section

namespace Cert.KVal

open Cert.KernelIdeal Cert.KernelIdeal.Gen
open Idealize.ShloMosaic Idealize.ShloMosaic.TcCoe Idealize.SL.Sem

/-! ## The index maps, over the grid -/

/-- All windows sit on the output's block: the per-pixel windows on its first three block coordinates, the
    per-feature windows on all four, the feature coordinate always block 0; the block coordinates range over
    `2 × 45 × 5`. -/
theorem same_block : ∀ t : Fin cfg0.N,
    (win0_0.index t (0 : Fin 3) = win0_7.index t (0 : Fin 4) ∧ win0_0.index t (1 : Fin 3) = win0_7.index t (1 : Fin 4) ∧ win0_0.index t (2 : Fin 3) = win0_7.index t (2 : Fin 4))
    ∧ (win0_1.index t (0 : Fin 3) = win0_7.index t (0 : Fin 4) ∧ win0_1.index t (1 : Fin 3) = win0_7.index t (1 : Fin 4) ∧ win0_1.index t (2 : Fin 3) = win0_7.index t (2 : Fin 4))
    ∧ (win0_2.index t (0 : Fin 3) = win0_7.index t (0 : Fin 4) ∧ win0_2.index t (1 : Fin 3) = win0_7.index t (1 : Fin 4) ∧ win0_2.index t (2 : Fin 3) = win0_7.index t (2 : Fin 4))
    ∧ win0_3.index t = win0_7.index t ∧ win0_4.index t = win0_7.index t ∧ win0_5.index t = win0_7.index t
    ∧ win0_6.index t = win0_8.index t
    ∧ win0_7.index t (3 : Fin 4) = 0 :=
  (by decide +kernel : ∀ t : Fin grid0.N, _)

/-- The grid's points in order are the block indices in row-major order: point `t` is block
    `(t / 225, t / 5 mod 45, t mod 5)`. -/
theorem index7 : ∀ t : Fin cfg0.N, win0_7.index t = ![t.val / 225, t.val / 5 % 45, t.val % 5, 0] :=
  (by decide +kernel : ∀ t : Fin grid0.N, _)

theorem index8 : ∀ t : Fin cfg0.N, win0_8.index t = ![t.val / 225, t.val / 5 % 45, t.val % 5] :=
  (by decide +kernel : ∀ t : Fin grid0.N, _)

/-- The point of block `(q0, q1, q2)`. -/
def pointOf (q0 q1 q2 : Nat) (h0 : q0 < 2) (h1 : q1 < 45) (h2 : q2 < 5) : Fin cfg0.N :=
  ⟨q0 * 225 + q1 * 5 + q2, by show _ < grid0.N; rw [N_0]; omega⟩

theorem pointOf_val (q0 q1 q2 : Nat) (h0 : q0 < 2) (h1 : q1 < 45) (h2 : q2 < 5) :
    (pointOf q0 q1 q2 h0 h1 h2).val = q0 * 225 + q1 * 5 + q2 := rfl

end Cert.KVal

end
-- ==== Proof.KValue.lean ====
/-
  The two arrays the kernel region leaves, as whole-array functions of the program's arguments.

  Every grid point `t = (b, i, j)` works on the block of `24 × 384` pixels at block index `(b, i, j)` of each
  per-pixel array (and all 16 features of the per-feature arrays): all nine index maps name the same block, so
  what a point writes back is that block of ONE function of the arrays the region finds — feature `e` of pixel
  `p` is `w0[p]·a0[p,e] + w1[p]·a1[p,e] + w2[p]·a2[p,e]`, the mask word of pixel `p` is the widened flag
  "face number ≠ −1".  The `2 × 45 × 5` blocks tile the image (`1080 = 45·24`, `1920 = 5·384`), so the arrays
  end holding those functions everywhere.  Read through the arrays' definitions (the weight slices, the
  attribute rows gathered at each corner's vertex numbers) the first is the interpolated image.
-/
import proofs.«141575_j47845935678015_1_alg».proof.Proof.KHost
import proofs.«141575_j47845935678015_1_alg».proof.Proof.KBody
import proofs.«141575_j47845935678015_1_alg».proof.Proof.KGrid
import Idealize.ShloMosaic.Lib.Pipeline.Value

set_option maxRecDepth 16384

noncomputable section

namespace Cert.KVal

open Cert.KernelIdeal Cert.KernelIdeal.Gen Cert.Interp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The arrays the region finds, by their literal types -/

abbrev w0 (c : Dev nD) : Vec Ideal S2x1080x1920 .f32 := V m c main_v35
abbrev w1 (c : Dev nD) : Vec Ideal S2x1080x1920 .f32 := V m c main_v37
abbrev w2 (c : Dev nD) : Vec Ideal S2x1080x1920 .f32 := V m c main_v39
abbrev a0 (c : Dev nD) : Vec Ideal S2x1080x1920x16 .f32 := V m c main_v19
abbrev a1 (c : Dev nD) : Vec Ideal S2x1080x1920x16 .f32 := V m c main_v26
abbrev a2 (c : Dev nD) : Vec Ideal S2x1080x1920x16 .f32 := V m c main_v33
abbrev pfA (c : Dev nD) : Vec Ideal S2x1080x1920 .i32 := V m c main_arg3

/-- The pixel of a per-feature index. -/
abbrev pixOf (i : S2x1080x1920x16.Idx) : S2x1080x1920.Idx := ix3 (n0 := 2) (n1 := 1080) (n2 := 1920) (i 0) (i 1) (i 2)

/-- The feature array the region leaves: per pixel and feature, the weighted sum of the three gathered rows. -/
def featOf (c : Dev nD) : S2x1080x1920x16.Idx → EReal := fun i =>
  w0 m c (pixOf i) * a0 m c i + w1 m c (pixOf i) * a1 m c i + w2 m c (pixOf i) * a2 m c i

/-- The mask array the region leaves: per pixel, the flag "face number is not −1", as a word. -/
def maskOf (c : Dev nD) : S2x1080x1920.Idx → BitVec 32 := fun i =>
  (IntOp.cmpi .ne (pfA m c i) 4294967295#32).setWidth 32

/-! ## What a point writes back -/

set_option maxHeartbeats 2000000 in
/-- Point `t` writes back block `t` of `featOf`: each input block is its array read under the output's block. -/
theorem flushed7_eq (c : Dev nD) (t : Fin cfg0.N) :
    (dats m 0 c).flushed 7 t = ((cfg0.win 7).blk t).view.read (Elt Ideal) (featOf m c) := by
  show (cfg0.win 7).cut (grid0.coords t) ((dats m 0 c).after 7 t) = _
  rw [after0_7]
  funext j
  refine (out7_at (iblk m c 0 t) (iblk m c 1 t) (iblk m c 2 t) (iblk m c 3 t) (iblk m c 4 t) (iblk m c 5 t) (iblk m c 6 t)
    ((cfg0.win 7).xinj (grid0.coords t) j)).trans ?_
  obtain ⟨⟨e00, e01, e02⟩, ⟨e10, e11, e12⟩, ⟨e20, e21, e22⟩, e3, e4, e5, e6, e73⟩ := same_block t
  have hp0 : ((cfg0.win 0).blk t).view.emb (pxOf ((cfg0.win 7).xinj (grid0.coords t) j)) = pixOf (((cfg0.win 7).blk t).view.emb j) := by
    funext a; apply Fin.ext
    match a with
    | ⟨0, _⟩ => show win0_0.index t (0 : Fin 3) * 1 + 1 * (j 0).val = win0_7.index t (0 : Fin 4) * 1 + 1 * (j 0).val; rw [e00]
    | ⟨1, _⟩ => show win0_0.index t (1 : Fin 3) * 24 + 1 * (j 1).val = win0_7.index t (1 : Fin 4) * 24 + 1 * (j 1).val; rw [e01]
    | ⟨2, _⟩ => show win0_0.index t (2 : Fin 3) * 384 + 1 * (j 2).val = win0_7.index t (2 : Fin 4) * 384 + 1 * (j 2).val; rw [e02]
  have hp1 : ((cfg0.win 1).blk t).view.emb (pxOf ((cfg0.win 7).xinj (grid0.coords t) j)) = pixOf (((cfg0.win 7).blk t).view.emb j) := by
    funext a; apply Fin.ext
    match a with
    | ⟨0, _⟩ => show win0_1.index t (0 : Fin 3) * 1 + 1 * (j 0).val = win0_7.index t (0 : Fin 4) * 1 + 1 * (j 0).val; rw [e10]
    | ⟨1, _⟩ => show win0_1.index t (1 : Fin 3) * 24 + 1 * (j 1).val = win0_7.index t (1 : Fin 4) * 24 + 1 * (j 1).val; rw [e11]
    | ⟨2, _⟩ => show win0_1.index t (2 : Fin 3) * 384 + 1 * (j 2).val = win0_7.index t (2 : Fin 4) * 384 + 1 * (j 2).val; rw [e12]
  have hp2 : ((cfg0.win 2).blk t).view.emb (pxOf ((cfg0.win 7).xinj (grid0.coords t) j)) = pixOf (((cfg0.win 7).blk t).view.emb j) := by
    funext a; apply Fin.ext
    match a with
    | ⟨0, _⟩ => show win0_2.index t (0 : Fin 3) * 1 + 1 * (j 0).val = win0_7.index t (0 : Fin 4) * 1 + 1 * (j 0).val; rw [e20]
    | ⟨1, _⟩ => show win0_2.index t (1 : Fin 3) * 24 + 1 * (j 1).val = win0_7.index t (1 : Fin 4) * 24 + 1 * (j 1).val; rw [e21]
    | ⟨2, _⟩ => show win0_2.index t (2 : Fin 3) * 384 + 1 * (j 2).val = win0_7.index t (2 : Fin 4) * 384 + 1 * (j 2).val; rw [e22]
  have hf3 : ((cfg0.win 3).blk t).view.emb ((cfg0.win 7).xinj (grid0.coords t) j) = ((cfg0.win 7).blk t).view.emb j := by
    funext a; apply Fin.ext
    show win0_3.index t a * S1x24x384x16.size a + 1 * (j a).val = win0_7.index t a * S1x24x384x16.size a + 1 * (j a).val
    rw [e3]
  have hf4 : ((cfg0.win 4).blk t).view.emb ((cfg0.win 7).xinj (grid0.coords t) j) = ((cfg0.win 7).blk t).view.emb j := by
    funext a; apply Fin.ext
    show win0_4.index t a * S1x24x384x16.size a + 1 * (j a).val = win0_7.index t a * S1x24x384x16.size a + 1 * (j a).val
    rw [e4]
  have hf5 : ((cfg0.win 5).blk t).view.emb ((cfg0.win 7).xinj (grid0.coords t) j) = ((cfg0.win 7).blk t).view.emb j := by
    funext a; apply Fin.ext
    show win0_5.index t a * S1x24x384x16.size a + 1 * (j a).val = win0_7.index t a * S1x24x384x16.size a + 1 * (j a).val
    rw [e5]
  have hw0 : iblk m c 0 t (pxOf ((cfg0.win 7).xinj (grid0.coords t) j)) = w0 m c (pixOf (((cfg0.win 7).blk t).view.emb j)) := by
    show w0 m c (((cfg0.win 0).blk t).view.emb (pxOf ((cfg0.win 7).xinj (grid0.coords t) j))) = _
    rw [hp0]
  have hw1 : iblk m c 1 t (pxOf ((cfg0.win 7).xinj (grid0.coords t) j)) = w1 m c (pixOf (((cfg0.win 7).blk t).view.emb j)) := by
    show w1 m c (((cfg0.win 1).blk t).view.emb (pxOf ((cfg0.win 7).xinj (grid0.coords t) j))) = _
    rw [hp1]
  have hw2 : iblk m c 2 t (pxOf ((cfg0.win 7).xinj (grid0.coords t) j)) = w2 m c (pixOf (((cfg0.win 7).blk t).view.emb j)) := by
    show w2 m c (((cfg0.win 2).blk t).view.emb (pxOf ((cfg0.win 7).xinj (grid0.coords t) j))) = _
    rw [hp2]
  have ha0 : iblk m c 3 t ((cfg0.win 7).xinj (grid0.coords t) j) = a0 m c (((cfg0.win 7).blk t).view.emb j) := by
    show a0 m c (((cfg0.win 3).blk t).view.emb ((cfg0.win 7).xinj (grid0.coords t) j)) = _
    rw [hf3]
  have ha1 : iblk m c 4 t ((cfg0.win 7).xinj (grid0.coords t) j) = a1 m c (((cfg0.win 7).blk t).view.emb j) := by
    show a1 m c (((cfg0.win 4).blk t).view.emb ((cfg0.win 7).xinj (grid0.coords t) j)) = _
    rw [hf4]
  have ha2 : iblk m c 5 t ((cfg0.win 7).xinj (grid0.coords t) j) = a2 m c (((cfg0.win 7).blk t).view.emb j) := by
    show a2 m c (((cfg0.win 5).blk t).view.emb ((cfg0.win 7).xinj (grid0.coords t) j)) = _
    rw [hf5]
  rw [hw0, hw1, hw2, ha0, ha1, ha2]
  rfl

/-- Point `t` writes back block `t` of `maskOf`. -/
theorem flushed8_eq (c : Dev nD) (t : Fin cfg0.N) :
    (dats m 0 c).flushed 8 t = ((cfg0.win 8).blk t).view.read (Elt Ideal) (maskOf m c) := by
  show (cfg0.win 8).cut (grid0.coords t) ((dats m 0 c).after 8 t) = _
  rw [after0_8]
  funext j
  refine (out8_apply (iblk m c 0 t) (iblk m c 1 t) (iblk m c 2 t) (iblk m c 3 t) (iblk m c 4 t) (iblk m c 5 t) (iblk m c 6 t)
    ((cfg0.win 8).xinj (grid0.coords t) j)).trans ?_
  obtain ⟨-, -, -, -, -, -, e6, -⟩ := same_block t
  show (IntOp.cmpi .ne (pfA m c (((cfg0.win 6).blk t).view.emb ((cfg0.win 8).xinj (grid0.coords t) j))) 4294967295#32).setWidth 32
    = maskOf m c (((cfg0.win 8).blk t).view.emb j)
  have h6 : ((cfg0.win 6).blk t).view.emb ((cfg0.win 8).xinj (grid0.coords t) j) = ((cfg0.win 8).blk t).view.emb j := by
    funext a; apply Fin.ext
    show win0_6.index t a * S1x24x384.size a + 1 * (j a).val = win0_8.index t a * S1x24x384.size a + 1 * (j a).val
    rw [e6]
  rw [h6]
  rfl

/-! ## The blocks tile the image -/

theorem mem_blk7 (t : Fin cfg0.N) (i : S2x1080x1920x16.Idx) :
    i ∈ ((cfg0.win 7).blk t).view.set ↔ ∀ a : Fin 4, win0_7.index t a * S1x24x384x16.size a ≤ (i a).val ∧ (i a).val < win0_7.index t a * S1x24x384x16.size a + S1x24x384x16.size a := by
  show i ∈ ((View.whole main_v40_0).slice (win0_7.rect t)).set ↔ _
  rw [View.set_slice_whole, Rect.mem_set_unit]
  exact Iff.rfl

theorem mem_blk8 (t : Fin cfg0.N) (i : S2x1080x1920.Idx) :
    i ∈ ((cfg0.win 8).blk t).view.set ↔ ∀ a : Fin 3, win0_8.index t a * S1x24x384.size a ≤ (i a).val ∧ (i a).val < win0_8.index t a * S1x24x384.size a + S1x24x384.size a := by
  show i ∈ ((View.whole main_v40_1).slice (win0_8.rect t)).set ↔ _
  rw [View.set_slice_whole, Rect.mem_set_unit]
  exact Iff.rfl

/-- Every feature index is in the block of the point at block index `(b, h / 24, q / 384)`. -/
theorem cover7 (i : S2x1080x1920x16.Idx) :
    ∃ t : Fin cfg0.N, (cfg0.win 7).flush t = true ∧ i ∈ ((cfg0.win 7).blk t).view.set := by
  have hi0 : (i 0).val < 2 := (i 0).isLt
  have hi1 : (i 1).val < 1080 := (i 1).isLt
  have hi2 : (i 2).val < 1920 := (i 2).isLt
  have hi3 : (i 3).val < 16 := (i 3).isLt
  have hv := pointOf_val (i 0).val ((i 1).val / 24) ((i 2).val / 384) hi0 (by omega) (by omega)
  generalize pointOf (i 0).val ((i 1).val / 24) ((i 2).val / 384) hi0 (by omega) (by omega) = t at hv
  have q0 : win0_7.index t (0 : Fin 4) = t.val / 225 := congrFun (index7 t) 0
  have q1 : win0_7.index t (1 : Fin 4) = t.val / 5 % 45 := congrFun (index7 t) 1
  have q2 : win0_7.index t (2 : Fin 4) = t.val % 5 := congrFun (index7 t) 2
  have q3 : win0_7.index t (3 : Fin 4) = 0 := congrFun (index7 t) 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 24 ≤ (i 1).val ∧ (i 1).val < win0_7.index t (1 : Fin 4) * 24 + 24; omega
  | ⟨2, _⟩ => show win0_7.index t (2 : Fin 4) * 384 ≤ (i 2).val ∧ (i 2).val < win0_7.index t (2 : Fin 4) * 384 + 384; omega
  | ⟨3, _⟩ => show win0_7.index t (3 : Fin 4) * 16 ≤ (i 3).val ∧ (i 3).val < win0_7.index t (3 : Fin 4) * 16 + 16; omega

/-- Every pixel is in the block of the point at block index `(b, h / 24, q / 384)`. -/
theorem cover8 (i : S2x1080x1920.Idx) :
    ∃ t : Fin cfg0.N, (cfg0.win 8).flush t = true ∧ i ∈ ((cfg0.win 8).blk t).view.set := by
  have hi0 : (i 0).val < 2 := (i 0).isLt
  have hi1 : (i 1).val < 1080 := (i 1).isLt
  have hi2 : (i 2).val < 1920 := (i 2).isLt
  have hv := pointOf_val (i 0).val ((i 1).val / 24) ((i 2).val / 384) hi0 (by omega) (by omega)
  generalize pointOf (i 0).val ((i 1).val / 24) ((i 2).val / 384) hi0 (by omega) (by omega) = t at hv
  have q0 : win0_8.index t (0 : Fin 3) = t.val / 225 := congrFun (index8 t) 0
  have q1 : win0_8.index t (1 : Fin 3) = t.val / 5 % 45 := congrFun (index8 t) 1
  have q2 : win0_8.index t (2 : Fin 3) = t.val % 5 := congrFun (index8 t) 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 24 ≤ (i 1).val ∧ (i 1).val < win0_8.index t (1 : Fin 3) * 24 + 24; omega
  | ⟨2, _⟩ => show win0_8.index t (2 : Fin 3) * 384 ≤ (i 2).val ∧ (i 2).val < win0_8.index t (2 : Fin 3) * 384 + 384; omega

/-- The feature array after the run. -/
theorem final7 (c : Dev nD) : (dats m 0 c).arrAt 7 cfg0.N = featOf m c :=
  (dats m 0 c).arrAt_eq_of_cover 7 (featOf m c) (fun t _ => flushed7_eq m c t) cover7

/-- The mask array after the run. -/
theorem final8 (c : Dev nD) : (dats m 0 c).arrAt 8 cfg0.N = maskOf m c :=
  (dats m 0 c).arrAt_eq_of_cover 8 (maskOf m c) (fun t _ => flushed8_eq m c t) cover8

end Cert.KVal

end
-- ==== Proof.KResult.lean ====
/-
  The kernel program's two results as functions of its arguments.

  The feature array the region leaves is the interpolated image: each per-pixel weight array is a corner's
  slice of the barycentric weights, and each gathered-rows array reads, at `(b, h, q, e)`, feature `e` of the
  table row the corner's normalised vertex number names — the batched row gather at the per-pixel index array.
  The second result is computed after the region: the mask words compared with zero.  A flag widened to a
  word is non-zero exactly when the flag is set, so the result is the flag "face number ≠ −1" itself.
-/
import proofs.«141575_j47845935678015_1_alg».proof.Proof.KValue
import Idealize.ShloMosaic.Lib.StableHlo.Run

set_option maxRecDepth 16384

noncomputable section

namespace Cert.KVal

open Cert.KernelIdeal Cert.KernelIdeal.Gen Cert.Interp
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The program's per-pixel row gather is the batched row gather of `GatherRow`. -/
theorem dimsK_eq : gather_S2x100000x16_S2x1080x1920x1_S2x1080x1920x16_3_1_0_0_1_3_1116 = dimsPx := rfl

/-- Corner `k`'s weight array at a pixel. -/
theorem weight_at (c : Dev nD) (off : Fin 4 → Nat) (hs : S2x1080x1920x3.Slices off S2x1080x1920x1) (k : Fin 3)
    (h0 : off 0 = 0) (h1 : off 1 = 0) (h2 : off 2 = 0) (h3 : off 3 = k.val) (b : Fin 2) (h : Fin 1080) (q : Fin 1920) :
    cornerOf off hs (m ((c : Thread nD τ).loc main_arg1)) (ix3 b h q) = m ((c : Thread nD τ).loc main_arg1) (ix4 b h q k) :=
  corner_apply _ off hs _ k h0 h1 h2 h3 b h q

/-- Corner `k`'s gathered rows at a pixel and feature. -/
theorem rows_at (c : Dev nD) (off : Fin 4 → Nat) (hs : S2x1080x1920x3.Slices off S2x1080x1920x1) (k : Fin 3)
    (h0 : off 0 = 0) (h1 : off 1 = 0) (h2 : off 2 = 0) (h3 : off 3 = k.val) (b : Fin 2) (h : Fin 1080) (q : Fin 1920) (e : Fin 16) :
    rowsAt m c (cornerOf off hs (faceIdx m c)) (ix4 b h q e)
      = m ((c : Thread nD τ).loc main_arg0) (ix3 b (vertexOf (faceIdx m c) b h q k) e) := by
  show Host.gather gather_S2x100000x16_S2x1080x1920x1_S2x1080x1920x16_3_1_0_0_1_3_1116 _ _ (ix4 b h q e) = _
  rw [dimsK_eq, gather_dimsPx_apply, trailing_unit_apply]
  show m ((c : Thread nD τ).loc main_arg0) (ix3 b (rowOf (Scalar.select
      (IntOp.cmpi .slt (cornerOf off hs (faceIdx m c) (ix3 b h q)) 0#32)
      (IntOp.addi (cornerOf off hs (faceIdx m c) (ix3 b h q)) 100000#32)
      (cornerOf off hs (faceIdx m c) (ix3 b h q)))) e) = _
  have hc : cornerOf off hs (faceIdx m c) (ix3 b h q) = faceIdx m c (ix4 b h q k) :=
    corner_apply (faceIdx m c) off hs shapeCasts_S2x1080x1920x1_S2x1080x1920 k h0 h1 h2 h3 b h q
  rw [hc]
  rfl

theorem w0_at (c : Dev nD) (b : Fin 2) (h : Fin 1080) (q : Fin 1920) :
    w0 m c (ix3 b h q) = m ((c : Thread nD τ).loc main_arg1) (ix4 b h q (0 : Fin 3)) := by
  show V m c main_v35 (ix3 b h q) = _
  rw [weights0]
  exact weight_at m c _ _ 0 rfl rfl rfl rfl b h q
theorem w1_at (c : Dev nD) (b : Fin 2) (h : Fin 1080) (q : Fin 1920) :
    w1 m c (ix3 b h q) = m ((c : Thread nD τ).loc main_arg1) (ix4 b h q (1 : Fin 3)) := by
  show V m c main_v37 (ix3 b h q) = _
  rw [weights1]
  exact weight_at m c _ _ 1 rfl rfl rfl rfl b h q
theorem w2_at (c : Dev nD) (b : Fin 2) (h : Fin 1080) (q : Fin 1920) :
    w2 m c (ix3 b h q) = m ((c : Thread nD τ).loc main_arg1) (ix4 b h q (2 : Fin 3)) := by
  show V m c main_v39 (ix3 b h q) = _
  rw [weights2]
  exact weight_at m c _ _ 2 rfl rfl rfl rfl b h q
theorem a0_at (c : Dev nD) (b : Fin 2) (h : Fin 1080) (q : Fin 1920) (e : Fin 16) :
    a0 m c (ix4 b h q e) = m ((c : Thread nD τ).loc main_arg0) (ix3 b (vertexOf (faceIdx m c) b h q 0) e) := by
  show V m c main_v19 (ix4 b h q e) = _
  rw [rows0]
  exact rows_at m c _ _ 0 rfl rfl rfl rfl b h q e
theorem a1_at (c : Dev nD) (b : Fin 2) (h : Fin 1080) (q : Fin 1920) (e : Fin 16) :
    a1 m c (ix4 b h q e) = m ((c : Thread nD τ).loc main_arg0) (ix3 b (vertexOf (faceIdx m c) b h q 1) e) := by
  show V m c main_v26 (ix4 b h q e) = _
  rw [rows1]
  exact rows_at m c _ _ 1 rfl rfl rfl rfl b h q e
theorem a2_at (c : Dev nD) (b : Fin 2) (h : Fin 1080) (q : Fin 1920) (e : Fin 16) :
    a2 m c (ix4 b h q e) = m ((c : Thread nD τ).loc main_arg0) (ix3 b (vertexOf (faceIdx m c) b h q 2) e) := by
  show V m c main_v33 (ix4 b h q e) = _
  rw [rows2]
  exact rows_at m c _ _ 2 rfl rfl rfl rfl b h q e

/-- The feature array the region leaves is the interpolated image of the arguments. -/
theorem feat_eq (c : Dev nD) :
    featOf m c = interp (m ((c : Thread nD τ).loc main_arg0)) (m ((c : Thread nD τ).loc main_arg1)) (faceIdx m c) := by
  funext i
  obtain ⟨b, h, q, e, rfl⟩ : ∃ (b : Fin 2) (h : Fin 1080) (q : Fin 1920) (e : Fin 16), i = ix4 b h q e :=
    ⟨i 0, i 1, i 2, i 3, eq_ix4 i⟩
  rw [interp_ix4]
  unfold interpAt
  show w0 m c (ix3 b h q) * a0 m c (ix4 b h q e) + w1 m c (ix3 b h q) * a1 m c (ix4 b h q e)
      + w2 m c (ix3 b h q) * a2 m c (ix4 b h q e) = _
  rw [w0_at, w1_at, w2_at, a0_at, a1_at, a2_at]

/-- The mask array the region leaves holds the widened coverage flags of the argument. -/
theorem mask_words (c : Dev nD) (i : S2x1080x1920.Idx) :
    maskOf m c i = (covered (m ((c : Thread nD τ).loc main_arg3)) i).setWidth 32 := by
  show (IntOp.cmpi .ne (V m c main_arg3 i) 4294967295#32).setWidth 32 = _
  rw [V_main_arg3]
  rfl

set_option maxHeartbeats 2000000 in
/-- The second result, computed after the region from the mask array, is the coverage mask. -/
theorem tail_mask (c : Dev nD) :
    Pipeline.afterTail₀ cfgs (dats m) 0 (V0 m) [hostOps1] c main_v43 = covered (m ((c : Thread nD τ).loc main_arg3)) := by
  unfold Pipeline.afterTail₀
  show StableHlo.after hostOps1 _ (Proc.devRef .tc main_v43) = _
  after_results
  have hA : Pipeline.withArrays (cfgs 0).spec c (V0 m c) (fun w => (dats m 0 c).arrAt w (cfgs 0).N) (Proc.devRef .tc main_v40_1)
      = maskOf m c :=
    (Pipeline.withArrays_arr spec0 launch0.win.arr_inj c _ _ 8).trans (final8 m c)
  rw [hA]
  funext i
  show IntOp.cmpi .ne (maskOf m c i) 0#32 = covered (m ((c : Thread nD τ).loc main_arg3)) i
  rw [mask_words, widened_ne_zero]

/-- The kernel program's run: its two results named, its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v40_0)
        = interp (m ((c.tc : Thread nD τ).loc main_arg0)) (m ((c.tc : Thread nD τ).loc main_arg1)) (faceIdx m c)
      ∧ r.2.mem ((c.tc : Thread nD τ).loc main_v43) = covered (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 7).trans ((final7 m c).trans (feat_eq m c)),
      ((h c).2 main_v43 (Pipeline.mem_restRefs_of main_v43 (by decide) (by decide))).trans (tail_mask m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 6).trans (((dats m 0 c).arrAt_in 6 rfl _).trans ((A_eq m c 6).trans (V_main_arg3 m c)))⟩)
    (run_main m ρ)

end Cert.KVal

end
-- ==== Proof.lean ====
/-
  Barycentric attribute interpolation over a rasterised image: the kernel program against its reference.

  Both programs read, for every pixel, the face number from `pix_to_face`, the face's three vertex numbers from
  `faces` and the three vertices' attribute rows from `attributes` (each lookup normalising a negative index by
  counting from the end, then clamping into the table), and combine the rows with the pixel's barycentric
  weights.  The kernel program gathers one corner at a time and adds the three products in its region,
  `(w0·a0 + w1·a1) + w2·a2`; the reference gathers all corners at once and sums over the corner axis,
  `0 + Σ_k w_k·a_k`.  Over the extended reals `0 + x = x` and the three-term sum is the same left-nested sum,
  so no finiteness is needed.  The second result, "the pixel has a face", is in the kernel program a flag widened
  to a word inside the region and compared with zero after it, which is the flag itself.

  The frames of the two kernel programs are the generated ones; the reference's frame is its generated run with
  the results dropped; the idealisation rewrote nothing.
-/
import proofs.«141575_j47845935678015_1_alg».proof.Defs
import proofs.«141575_j47845935678015_1_alg».proof.Proof.Gen.Kernel
import proofs.«141575_j47845935678015_1_alg».proof.Proof.Gen.Kernel.Skeleton
import proofs.«141575_j47845935678015_1_alg».proof.Proof.Gen.Kernel.Launch
import proofs.«141575_j47845935678015_1_alg».proof.Proof.Gen.Kernel.Points
import proofs.«141575_j47845935678015_1_alg».proof.Proof.Gen.Kernel.Frame
import proofs.«141575_j47845935678015_1_alg».proof.Proof.Gen.KernelIdeal
import proofs.«141575_j47845935678015_1_alg».proof.Proof.Gen.KernelIdeal.Skeleton
import proofs.«141575_j47845935678015_1_alg».proof.Proof.Gen.KernelIdeal.Launch
import proofs.«141575_j47845935678015_1_alg».proof.Proof.Gen.KernelIdeal.Points
import proofs.«141575_j47845935678015_1_alg».proof.Proof.Gen.KernelIdeal.Frame
import proofs.«141575_j47845935678015_1_alg».proof.Proof.Gen.ReferenceIdeal
import proofs.«141575_j47845935678015_1_alg».proof.Proof.Gen.Pre_finite_inputs
import proofs.«141575_j47845935678015_1_alg».proof.Proof.Gen.ReferenceIdeal.Run
import proofs.«141575_j47845935678015_1_alg».proof.Proof.Gen.ReferenceIdeal.Read
import proofs.«141575_j47845935678015_1_alg».proof.Proof.RefInterp
import proofs.«141575_j47845935678015_1_alg».proof.Proof.KResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the interpolated image and the coverage mask of the (agreeing) arguments. -/
theorem algebraic : Cert.algebraic_KernelIdeal_ReferenceIdeal := by
  intro m ρ m' ρ' _ hagree
  refine ⟨_, _, Cert.KVal.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v17_eq, Cert.RefInterp.out_eq,
      (hagree c).1, (hagree c).2.1, (hagree c).2.2.1, (hagree c).2.2.2]
    rfl
  · rw [(h c).2.1, Cert.ReferenceIdeal.Read.val_main_v19_eq, Cert.RefInterp.mask_eq, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
